-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048 : Shape := ⟨2, ![8, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S8x2048 .f32) (main_arg2 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  main_v13
-- ==== Kernel.lean ====
abbrev S16384x2048 : Shape := ⟨2, ![16384, 2048]⟩
abbrev S8x2048 : Shape := ⟨2, ![8, 2048]⟩
abbrev S64x2048 : Shape := ⟨2, ![64, 2048]⟩
abbrev S16384x64 : Shape := ⟨2, ![16384, 64]⟩
abbrev S1024x2048 : Shape := ⟨2, ![1024, 2048]⟩
abbrev S1024x64 : Shape := ⟨2, ![1024, 64]⟩
abbrev S1024x8 : Shape := ⟨2, ![1024, 8]⟩
abbrev S1024 : Shape := ⟨1, ![1024]⟩
abbrev S1024x1 : Shape := ⟨2, ![1024, 1]⟩
abbrev S1024x8x8 : Shape := ⟨3, ![1024, 8, 8]⟩
abbrev S1024x8x1 : Shape := ⟨3, ![1024, 8, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8x2048, .f32⟩
  | .hbm, ⟨2, _⟩ => ⟨S64x2048, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384x64, .f32⟩
  | .hbm, ⟨7, _⟩ => ⟨S16384x64, .i1⟩
  | .hbm, ⟨8, _⟩ => ⟨S16384x64, .i1⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S64x2048, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  inb_S64x2048_S64x2048_0_0 : ∀ a, (![0, 0] : Fin 2 → Nat) a + S64x2048.size a ≤ S64x2048.size a
  h_S64x2048 : 0 < S64x2048.numel
  reduces_S1024x8_S1024 : S1024x8.Reduces [1] S1024
  shapeCasts_S1024_S1024x1 : S1024.ShapeCasts S1024x1
  broadcasts_S1024x1_S1024x8 : S1024x1.Broadcasts S1024x8
  natLt_1_32 : 1 < 32
  shapeCasts_S1024x64_S1024x8x8 : S1024x64.ShapeCasts S1024x8x8
  reduces_S1024x8x8_S1024x8 : S1024x8x8.Reduces [2] S1024x8
  shapeCasts_S1024x8_S1024x8x1 : S1024x8.ShapeCasts S1024x8x1
  broadcasts_S1024x8x1_S1024x8x8 : S1024x8x1.Broadcasts S1024x8x8
  shapeCasts_S1024x8x8_S1024x64 : S1024x8x8.ShapeCasts S1024x64
  reduces_S1024x64_S1024 : S1024x64.Reduces [1] S1024
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  bcast_S_S16384x64 : S_.BroadcastsInDim S16384x64 (![] : Fin 0 → Fin S16384x64.rank)
  dot_S1024x2048_S8x2048_S1024x8_1_1_0_0_n_n_wf : DotDims.WF S1024x2048 S8x2048 S1024x8 [1] [1] [0] [0] [] []
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .f32 = 32 ∨ (Rect.block (s := S16384x64) S1024x64.size (cc0_transform_4 i) (hinb0_4 i)).WholeWords (EltTy.packing .f32)

variable [Facts₀]

def dot_S1024x2048_S8x2048_S1024x8_1_1_0_0_n_n : DotDims S1024x2048 S8x2048 S1024x8 where
  lhsContracting := [1]
  rhsContracting := [1]
  lhsNonContracting := [0]
  rhsNonContracting := [0]
  lhsBatch := []
  rhsBatch := []
  wf := dot_S1024x2048_S8x2048_S1024x8_1_1_0_0_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x2048 : Shape := ⟨2, ![8, 2048]⟩
abbrev S64x2048 : Shape := ⟨2, ![64, 2048]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S16384x64 : Shape := ⟨2, ![16384, 64]⟩
abbrev S16384x8x8 : Shape := ⟨3, ![16384, 8, 8]⟩
abbrev S16384x8x1 : Shape := ⟨3, ![16384, 8, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048, .f32⟩
  | .hbm, ⟨2, _⟩ => ⟨S64x2048, .f32⟩
  | .hbm, ⟨3, _⟩ => ⟨S16384x8, .f32⟩
  | .hbm, ⟨4, _⟩ => ⟨S_, .f32⟩
  | .hbm, ⟨5, _⟩ => ⟨S16384x8, .f32⟩
  | .hbm, ⟨6, _⟩ => ⟨S16384x8, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x8, .f32⟩
  | .hbm, ⟨14, _⟩ => ⟨S16384x8, .f32⟩
  | .hbm, ⟨15, _⟩ => ⟨S16384x8, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x8, .f32⟩
  | .hbm, ⟨20, _⟩ => ⟨S16384x8, .f32⟩
  | .hbm, ⟨21, _⟩ => ⟨S_, .f32⟩
  | .hbm, ⟨22, _⟩ => ⟨S16384x8, .f32⟩
  | .hbm, ⟨23, _⟩ => ⟨S16384x8, .i1⟩
  | .hbm, ⟨24, _⟩ => ⟨S16384x64, .f32⟩
  | .hbm, ⟨25, _⟩ => ⟨S16384x8x8, .f32⟩
  | .hbm, ⟨26, _⟩ => ⟨S_, .f32⟩
  | .hbm, ⟨27, _⟩ => ⟨S16384x8x8, .f32⟩
  | .hbm, ⟨28, _⟩ => ⟨S16384x8x8, .f32⟩
  | .hbm, ⟨29, _⟩ => ⟨S_, .f32⟩
  | .hbm, ⟨30, _⟩ => ⟨S16384x8, .f32⟩
  | .hbm, ⟨31, _⟩ => ⟨S_, .f32⟩
  | .hbm, ⟨32, _⟩ => ⟨S16384x8, .f32⟩
  | .hbm, ⟨33, _⟩ => ⟨S16384x8, .f32⟩
  | .hbm, ⟨34, _⟩ => ⟨S16384x8x1, .f32⟩
  | .hbm, ⟨35, _⟩ => ⟨S16384x8x8, .f32⟩
  | .hbm, ⟨36, _⟩ => ⟨S16384x8x8, .f32⟩
  | .hbm, ⟨37, _⟩ => ⟨S16384x8x8, .f32⟩
  | .hbm, ⟨38, _⟩ => ⟨S_, .f32⟩
  | .hbm, ⟨39, _⟩ => ⟨S16384x8, .f32⟩
  | .hbm, ⟨40, _⟩ => ⟨S16384x8x1, .f32⟩
  | .hbm, ⟨41, _⟩ => ⟨S16384x8x8, .f32⟩
  | .hbm, ⟨42, _⟩ => ⟨S16384x8x8, .f32⟩
  | .hbm, ⟨43, _⟩ => ⟨S_, .f32⟩
  | .hbm, ⟨44, _⟩ => ⟨S16384x8x8, .f32⟩
  | .hbm, ⟨45, _⟩ => ⟨S16384x8x8, .i1⟩
  | .hbm, ⟨46, _⟩ => ⟨S16384x8x1, .i1⟩
  | .hbm, ⟨47, _⟩ => ⟨S16384x8x8, .i1⟩
  | .hbm, ⟨48, _⟩ => ⟨S16384x8x8, .i1⟩
  | .hbm, ⟨49, _⟩ => ⟨S16384x8x1, .f32⟩
  | .hbm, ⟨50, _⟩ => ⟨S16384x8x8, .f32⟩
  | .hbm, ⟨51, _⟩ => ⟨S16384x8x8, .f32⟩
  | .hbm, ⟨52, _⟩ => ⟨S16384x8x8, .f32⟩
  | .hbm, ⟨53, _⟩ => ⟨S16384x8x8, .f32⟩
  | .hbm, ⟨54, _⟩ => ⟨S16384x64, .i1⟩
  | .hbm, ⟨55, _⟩ => ⟨S16384x64, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x64, .f32⟩
  | .hbm, ⟨64, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_call0_v0 : Ref sig .tc := ⟨.hbm, 60, rfl⟩
abbrev main_call0_v1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  bcast_S_S16384x8 : S_.BroadcastsInDim S16384x8 (![] : Fin 0 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  shapeCasts_S16384x64_S16384x8x8 : S16384x64.ShapeCasts S16384x8x8
  bcast_S_S16384x8x8 : S_.BroadcastsInDim S16384x8x8 (![] : Fin 0 → Fin S16384x8x8.rank)
  reducesTo_S16384x8x8_S16384x8_d2 : S16384x8x8.ReducesTo [2] S16384x8
  bcast_S16384x8_S16384x8x1_0_1 : S16384x8.BroadcastsInDim S16384x8x1 (![0, 1] : Fin 2 → Fin S16384x8x1.rank)
  bcast_S16384x8x1_S16384x8x8_0_1_2 : S16384x8x1.BroadcastsInDim S16384x8x8 (![0, 1, 2] : Fin 3 → Fin S16384x8x8.rank)
  shapeCasts_S16384x8x8_S16384x64 : S16384x8x8.ShapeCasts S16384x64
  reducesTo_S16384x64_S16384_d1 : S16384x64.ReducesTo [1] S16384
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  dot_S16384x2048_S8x2048_S16384x8_1_1_0_0_n_n_wf : DotDims.WF S16384x2048 S8x2048 S16384x8 [1] [1] [0] [0] [] []
  dot_S16384x2048_S64x2048_S16384x64_1_1_0_0_n_n_wf : DotDims.WF S16384x2048 S64x2048 S16384x64 [1] [1] [0] [0] [] []

variable [Facts₀]

def dot_S16384x2048_S8x2048_S16384x8_1_1_0_0_n_n : DotDims S16384x2048 S8x2048 S16384x8 where
  lhsContracting := [1]
  rhsContracting := [1]
  lhsNonContracting := [0]
  rhsNonContracting := [0]
  lhsBatch := []
  rhsBatch := []
  wf := dot_S16384x2048_S8x2048_S16384x8_1_1_0_0_n_n_wf
def dot_S16384x2048_S64x2048_S16384x64_1_1_0_0_n_n : DotDims S16384x2048 S64x2048 S16384x64 where
  lhsContracting := [1]
  rhsContracting := [1]
  lhsNonContracting := [0]
  rhsNonContracting := [0]
  lhsBatch := []
  rhsBatch := []
  wf := dot_S16384x2048_S64x2048_S16384x64_1_1_0_0_n_n_wf

class Facts : Prop extends Facts₀ where

variable [Facts]
-- ==== Proof.RoutingSpec.lean ====
/-
  Two-level softmax routing of ONE token, as a function of the token's feature row and the two gate matrices.

  A token with features `x ∈ ℝ²⁰⁴⁸` is scored against 8 group gates and 64 expert gates (8 experts in each of the 8
  groups).  The group scores go through a softmax over the 8 groups; inside each group the 8 expert scores go
  through a softmax of their own.  A group is kept when its probability is at least 1/8, an expert when its
  probability inside its group is at least 1/8, and the pair (group, expert) is selected when both are kept.  The
  weight of a selected pair is the product of the two probabilities, an unselected pair weighs 0, and the 64 weights
  are divided by their sum, the sum taken no smaller than the floor 10⁻⁹ (as rounded to single precision).

  Every quantity is an extended real.  The softmax is written the way both programs compute it: the scores are
  multiplied by the temperature factor 1, the largest of them (a fold of `max` from −∞, then once more against −∞) is
  subtracted, the exponentials are divided by their sum.  The four float literals are kept as their bit patterns.
-/
import Idealize.ShloMosaic.PureOps.Ideal
import Idealize.ShloMosaic.PureOps.Ideal.Laws
import Idealize.ShloMosaic.Lib.ValueIdx

noncomputable section

namespace Cert.Routing

open Idealize.ShloMosaic Idealize.ShloMosaic.ValueIdx

/-! ## The literals -/

/-- The temperature factor, the pattern of 1. -/
abbrev one : EReal := Ideal.ofBits .f32 0x3F800000#32
/-- The pattern of −∞, from which a maximum is folded. -/
abbrev negInf : EReal := Ideal.ofBits .f32 0xFF800000#32
/-- The keeping threshold 1/8 (eight groups; eight experts a group). -/
abbrev eighth : EReal := Ideal.ofBits .f32 0x3E000000#32
/-- The floor under the sum of the selected weights: 10⁻⁹ rounded to single precision. -/
abbrev floor9 : EReal := Ideal.ofBits .f32 0x3089705F#32

/-! ## A bit as a number -/

/-- A one-bit word read as the number 0 or 1. -/
def bitf (b : BitVec 1) : EReal := ((b.toNat : ℝ) : EReal)

theorem bitf_zero : bitf 0#1 = 0 := by simp [bitf]
theorem bitf_one : bitf 1#1 = 1 := by simp [bitf]

/-- A one-bit word widened to 32 bits and read as a signed integer is the same number. -/
theorem toInt_setWidth_eq_bitf (b : BitVec 1) : (((b.setWidth 32).toInt : ℝ) : EReal) = bitf b := by
  by_cases h : b = 1#1
  · subst h; simp [bitf]
  · rw [eq_zero_of_ne_one h]; simp [bitf]

/-- The product of two bits read as numbers is their conjunction read as a number. -/
theorem bitf_mul (a b : BitVec 1) : bitf a * bitf b = bitf (a &&& b) := by
  by_cases ha : a = 1#1 <;> by_cases hb : b = 1#1
  · subst ha hb; simp [bitf]
  · subst ha; rw [eq_zero_of_ne_one hb]; simp [bitf]
  · subst hb; rw [eq_zero_of_ne_one ha]; simp [bitf]
  · rw [eq_zero_of_ne_one ha, eq_zero_of_ne_one hb]; simp [bitf]

/-- That product differs from 0 exactly when both bits are set. -/
theorem cmp_une_bitf_mul (a b : BitVec 1) :
    Ideal.cmp .une (bitf a * bitf b) (Ideal.ofBits .f32 0x00000000#32) = a &&& b := by
  rw [Ideal.ofBits_zero_f32]
  by_cases ha : a = 1#1 <;> by_cases hb : b = 1#1
  · subst ha hb; simp [bitf, Ideal.cmp]
  · subst ha; rw [eq_zero_of_ne_one hb]; simp [bitf, Ideal.cmp]
  · subst hb; rw [eq_zero_of_ne_one ha]; simp [bitf, Ideal.cmp]
  · rw [eq_zero_of_ne_one ha, eq_zero_of_ne_one hb]; simp [bitf, Ideal.cmp]

/-! ## Softmax over eight scores -/

/-- The largest scaled score: the fold of `max` from −∞ over the eight, taken once more against −∞. -/
def peak (z : Fin 8 → EReal) : EReal :=
  max negInf ((Finset.univ : Finset (Fin 8)).fold max negInf fun k => z k * one)

/-- The exponential of a scaled score less the largest. -/
def shifted (z : Fin 8 → EReal) (k : Fin 8) : EReal := Ideal.exp (z k * one - peak z)

/-- The softmax of eight scores at one of them. -/
def softmax (z : Fin 8 → EReal) (g : Fin 8) : EReal := Ideal.div (shifted z g) (∑ k : Fin 8, shifted z k)

/-! ## Pairs (group, expert) as one index below 64 -/

/-- Expert `e` of group `g`, as the row of the expert gate matrix: `8 g + e`. -/
def pair (g e : Fin 8) : Fin 64 := ⟨g.val * 8 + e.val, by have := g.isLt; have := e.isLt; omega⟩
/-- The group of expert row `j`. -/
def hi (j : Fin 64) : Fin 8 := ⟨j.val / 8, by have := j.isLt; omega⟩
/-- Its place inside the group. -/
def lo (j : Fin 64) : Fin 8 := ⟨j.val % 8, by have := j.isLt; omega⟩

theorem pair_hi_lo (j : Fin 64) : pair (hi j) (lo j) = j := Fin.ext (by show j.val / 8 * 8 + j.val % 8 = j.val; omega)
theorem hi_pair (g e : Fin 8) : hi (pair g e) = g := Fin.ext (by show (g.val * 8 + e.val) / 8 = g.val; have := e.isLt; omega)
theorem lo_pair (g e : Fin 8) : lo (pair g e) = e := Fin.ext (by show (g.val * 8 + e.val) % 8 = e.val; have := e.isLt; omega)

/-! ## The routing of one token -/

/-- A token's feature row. -/
abbrev Row := Fin 2048 → EReal
/-- The group gate matrix, one row a group. -/
abbrev GroupW := (⟨2, ![8, 2048]⟩ : Shape).Idx → EReal
/-- The expert gate matrix, one row an expert, the experts of a group together. -/
abbrev ExpertW := (⟨2, ![64, 2048]⟩ : Shape).Idx → EReal

variable (xr : Row) (Wg : GroupW) (We : ExpertW)

/-- The token's score against group `g`. -/
def groupLogit (g : Fin 8) : EReal := ∑ k : Fin 2048, xr k * Wg (ix2 g k)
/-- The token's score against expert `e` of group `g`. -/
def expertLogit (g e : Fin 8) : EReal := ∑ k : Fin 2048, xr k * We (ix2 (pair g e) k)

/-- The probability of group `g`. -/
def groupProb (g : Fin 8) : EReal := softmax (groupLogit xr Wg) g
/-- The probability of expert `e` inside group `g`. -/
def expertProb (g e : Fin 8) : EReal := softmax (expertLogit xr We g) e

/-- Group `g` is kept: its probability is at least 1/8. -/
def groupGate (g : Fin 8) : BitVec 1 := Ideal.cmp .oge (groupProb xr Wg g) eighth
/-- Expert `e` of group `g` is kept: its probability inside the group is at least 1/8. -/
def expertGate (g e : Fin 8) : BitVec 1 := Ideal.cmp .oge (expertProb xr We g e) eighth

/-- The selection of pair `j` as a bit: group and expert both kept. -/
def maskBit (j : Fin 64) : BitVec 1 := groupGate xr Wg (hi j) &&& expertGate xr We (hi j) (lo j)
/-- The same as a number, the product of the two gates read as numbers. -/
def maskF (j : Fin 64) : EReal := bitf (groupGate xr Wg (hi j)) * bitf (expertGate xr We (hi j) (lo j))

theorem maskF_eq (j : Fin 64) : maskF xr Wg We j = bitf (maskBit xr Wg We j) := bitf_mul _ _

theorem cmp_une_maskF (j : Fin 64) :
    Ideal.cmp .une (maskF xr Wg We j) (Ideal.ofBits .f32 0x00000000#32) = maskBit xr Wg We j := cmp_une_bitf_mul _ _

/-- The weight of pair `j` before normalising: the two probabilities' product where the pair is selected, else 0. -/
def selected (j : Fin 64) : EReal :=
  (groupProb xr Wg (hi j) * expertProb xr We (hi j) (lo j)) * maskF xr Wg We j

/-- The normaliser: the sum of the 64 weights, no smaller than the floor. -/
def total : EReal := max floor9 (∑ j : Fin 64, selected xr Wg We j)

/-- The normalised weight of pair `j`. -/
def weight (j : Fin 64) : EReal := Ideal.div (selected xr Wg We j) (total xr Wg We)

/-! ## All tokens at once -/

/-- Row `n` of a matrix with 2048 columns. -/
def rowOf {N : ℕ} (X : (⟨2, ![N, 2048]⟩ : Shape).Idx → EReal) (n : Fin N) : Row := fun k => X (ix2 n k)

/-- The 16384 tokens' feature rows. -/
abbrev Tokens := (⟨2, ![16384, 2048]⟩ : Shape).Idx → EReal

/-- Every token's selection bits: entry (n, j) is token `n`'s bit for pair `j`. -/
def maskBits (X : Tokens) (Wg : GroupW) (We : ExpertW) : (⟨2, ![16384, 64]⟩ : Shape).Idx → BitVec 1 :=
  fun i => maskBit (rowOf X (i 0)) Wg We (i 1)

/-- The same as numbers. -/
def maskFs (X : Tokens) (Wg : GroupW) (We : ExpertW) : (⟨2, ![16384, 64]⟩ : Shape).Idx → EReal :=
  fun i => maskF (rowOf X (i 0)) Wg We (i 1)

/-- Every token's normalised weights: entry (n, j) is token `n`'s weight for pair `j`. -/
def weights (X : Tokens) (Wg : GroupW) (We : ExpertW) : (⟨2, ![16384, 64]⟩ : Shape).Idx → EReal :=
  fun i => weight (rowOf X (i 0)) Wg We (i 1)

end Cert.Routing

end
-- ==== Proof.KernelRows.lean ====
/-
  What the kernel body computes for one row of its block.

  The body works on a block of 1024 tokens at once; every operation in it acts row by row, so entry (r, j) of
  each of the two stored values depends on row `r` of the token block and on the two gate matrices only, and is the
  routing of that one token (RoutingSpec): the first store holds the selection of pair `j` as the number 0 or 1
  (the product of the two gates read as numbers), the second the pair's normalised weight.
-/
import proofs.«172624_j46084999086157_1_alg».proof.Proof.Gen.KernelIdeal.Skeleton
import proofs.«172624_j46084999086157_1_alg».proof.Proof.RoutingSpec
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Cert.Routing Idealize.ShloMosaic Idealize.ShloMosaic.ValueIdx

/-! ## Layout operations of the body read at an entry

A per-row quantity (one number a token, or one a token and group) is carried to the shape of the values it meets by
adding a unit axis and repeating along it; the 64 expert columns are regrouped as 8 × 8 and back. -/

/-- A column repeated along 8 columns: entry (r, g) is the column's entry r. -/
theorem column_to_8 (v : FVec Ideal S1024 .f32) (h1 : S1024.ShapeCasts S1024x1) (h2 : S1024x1.Broadcasts S1024x8)
    (r : Fin 1024) (g : Fin 8) :
    broadcastTo S1024x8 (shapeCast S1024x1 v h1) h2 (ix2 r g) = v (ix1 r) := by
  refine (broadcastTo_apply (shapeCast S1024x1 v h1) h2 (ix2 r g) (ix2 r (0 : Fin 1)) (fun a => match a with
    | ⟨0, _⟩ => by show r.val = if (1024 : Nat) = 1 then 0 else r.val; rw [if_neg (by decide)]
    | ⟨1, _⟩ => by show 0 = if (1 : Nat) = 1 then 0 else g.val; rw [if_pos rfl])).trans ?_
  exact shapeCast_apply v h1 (ix2 r (0 : Fin 1)) (ix1 r)
    (by rewrite [Shape.rowMajor_val_one, Shape.rowMajor_val_two]; show r.val = r.val * 1 + 0; omega)

/-- A column repeated along 64 columns: entry (r, j) is the column's entry r. -/
theorem column_to_64 (v : FVec Ideal S1024x1 .f32) (h2 : S1024x1.Broadcasts S1024x64) (r : Fin 1024) (j : Fin 64) :
    broadcastTo S1024x64 v h2 (ix2 r j) = v (ix2 r (0 : Fin 1)) :=
  broadcastTo_apply v h2 (ix2 r j) (ix2 r (0 : Fin 1)) (fun a => match a with
    | ⟨0, _⟩ => by show r.val = if (1024 : Nat) = 1 then 0 else r.val; rw [if_neg (by decide)]
    | ⟨1, _⟩ => by show 0 = if (1 : Nat) = 1 then 0 else j.val; rw [if_pos rfl])

/-- A column with its unit axis added: entry (r, 0) is the column's entry r. -/
theorem column_unit (v : FVec Ideal S1024 .f32) (h1 : S1024.ShapeCasts S1024x1) (r : Fin 1024) :
    shapeCast S1024x1 v h1 (ix2 r (0 : Fin 1)) = v (ix1 r) :=
  shapeCast_apply v h1 (ix2 r (0 : Fin 1)) (ix1 r)
    (by rewrite [Shape.rowMajor_val_one, Shape.rowMajor_val_two]; show r.val = r.val * 1 + 0; omega)

/-- A (token, group) quantity repeated along the 8 experts of the group: entry (r, g, e) is its entry (r, g). -/
theorem group_to_experts (v : FVec Ideal S1024x8 .f32) (h1 : S1024x8.ShapeCasts S1024x8x1) (h2 : S1024x8x1.Broadcasts S1024x8x8)
    (r : Fin 1024) (g e : Fin 8) :
    broadcastTo S1024x8x8 (shapeCast S1024x8x1 v h1) h2 (ix3 r g e) = v (ix2 r g) := by
  refine (broadcastTo_apply (shapeCast S1024x8x1 v h1) h2 (ix3 r g e) (ix3 r g (0 : Fin 1)) (fun a => match a with
    | ⟨0, _⟩ => by show r.val = if (1024 : Nat) = 1 then 0 else r.val; rw [if_neg (by decide)]
    | ⟨1, _⟩ => by show g.val = if (8 : Nat) = 1 then 0 else g.val; rw [if_neg (by decide)]
    | ⟨2, _⟩ => by show 0 = if (1 : Nat) = 1 then 0 else e.val; rw [if_pos rfl])).trans ?_
  exact shapeCast_apply v h1 (ix3 r g (0 : Fin 1)) (ix2 r g)
    (by rewrite [Shape.rowMajor_val_two, Shape.rowMajor_val_three]; show r.val * 8 + g.val = (r.val * 8 + g.val) * 1 + 0; omega)

/-- The 64 expert columns regrouped as 8 groups of 8: entry (r, g, e) is column `8 g + e`. -/
theorem regroup (v : FVec Ideal S1024x64 .f32) (h : S1024x64.ShapeCasts S1024x8x8) (r : Fin 1024) (g e : Fin 8) :
    shapeCast S1024x8x8 v h (ix3 r g e) = v (ix2 r (pair g e)) :=
  shapeCast_apply v h (ix3 r g e) (ix2 r (pair g e))
    (by rewrite [Shape.rowMajor_val_two, Shape.rowMajor_val_three]
        show r.val * 64 + (g.val * 8 + e.val) = (r.val * 8 + g.val) * 8 + e.val; omega)

/-- And back: entry (r, j) of the flattened value is entry (r, j / 8, j % 8). -/
theorem flatten (v : FVec Ideal S1024x8x8 .f32) (h : S1024x8x8.ShapeCasts S1024x64) (r : Fin 1024) (j : Fin 64) :
    shapeCast S1024x64 v h (ix2 r j) = v (ix3 r (hi j) (lo j)) :=
  shapeCast_apply v h (ix2 r j) (ix3 r (hi j) (lo j))
    (by rewrite [Shape.rowMajor_val_two, Shape.rowMajor_val_three]
        show (r.val * 8 + j.val / 8) * 8 + j.val % 8 = r.val * 64 + j.val; omega)

/-! ## Reductions of the body read at an entry

A sum along the last axis is the sum over that axis's coordinates; a maximum along it is the fold of `max` from −∞. -/

theorem rowsum8 (v : FVec Ideal S1024x8 .f32) (h : S1024x8.Reduces [1] S1024) (hφ : FTy.f32 = FTy.f32 ∨ FTy.f32 = FTy.bf16)
    (hacc : (0x00000000#32 : BitVec 32) = 0x00000000#32) (r : Fin 1024) :
    multiReduction .add [1] S1024 v 0x00000000#32 h hφ hacc (ix1 r) = ∑ k : Fin 8, v (ix2 r k) := by
  refine (Ideal.multiReduction_add_single v 0x00000000#32 h hφ hacc (ix1 r)).trans (Finset.sum_congr rfl fun k _ => ?_)
  exact congrArg v (funext fun a => Fin.ext (by match a with | ⟨0, _⟩ => rfl | ⟨1, _⟩ => rfl))

theorem rowsum64 (v : FVec Ideal S1024x64 .f32) (h : S1024x64.Reduces [1] S1024) (hφ : FTy.f32 = FTy.f32 ∨ FTy.f32 = FTy.bf16)
    (hacc : (0x00000000#32 : BitVec 32) = 0x00000000#32) (r : Fin 1024) :
    multiReduction .add [1] S1024 v 0x00000000#32 h hφ hacc (ix1 r) = ∑ k : Fin 64, v (ix2 r k) := by
  refine (Ideal.multiReduction_add_single v 0x00000000#32 h hφ hacc (ix1 r)).trans (Finset.sum_congr rfl fun k _ => ?_)
  exact congrArg v (funext fun a => Fin.ext (by match a with | ⟨0, _⟩ => rfl | ⟨1, _⟩ => rfl))

theorem groupsum8 (v : FVec Ideal S1024x8x8 .f32) (h : S1024x8x8.Reduces [2] S1024x8) (hφ : FTy.f32 = FTy.f32 ∨ FTy.f32 = FTy.bf16)
    (hacc : (0x00000000#32 : BitVec 32) = 0x00000000#32) (r : Fin 1024) (g : Fin 8) :
    multiReduction .add [2] S1024x8 v 0x00000000#32 h hφ hacc (ix2 r g) = ∑ k : Fin 8, v (ix3 r g k) := by
  refine (Ideal.multiReduction_add_single v 0x00000000#32 h hφ hacc (ix2 r g)).trans (Finset.sum_congr rfl fun k _ => ?_)
  exact congrArg v (funext fun a => Fin.ext (by match a with | ⟨0, _⟩ => rfl | ⟨1, _⟩ => rfl | ⟨2, _⟩ => rfl))

theorem rowmax8 (v : FVec Ideal S1024x8 .f32) (h : S1024x8.Reduces [1] S1024) (hφ : FTy.f32 = FTy.f32 ∨ FTy.f32 = FTy.bf16)
    (hacc : (0xFF800000#32 : BitVec 32) = 0xFF800000#32) (r : Fin 1024) :
    multiReduction .maximumf [1] S1024 v 0xFF800000#32 h hφ hacc (ix1 r)
      = (Finset.univ : Finset (Fin 8)).fold max negInf fun k => v (ix2 r k) := by
  refine (Ideal.multiReduction_maximumf_single v 0xFF800000#32 h hφ hacc (ix1 r)).trans ?_
  exact congrArg (fun f => (Finset.univ : Finset (Fin 8)).fold max negInf f)
    (funext fun k => congrArg v (funext fun a => Fin.ext (by match a with | ⟨0, _⟩ => rfl | ⟨1, _⟩ => rfl)))

theorem groupmax8 (v : FVec Ideal S1024x8x8 .f32) (h : S1024x8x8.Reduces [2] S1024x8) (hφ : FTy.f32 = FTy.f32 ∨ FTy.f32 = FTy.bf16)
    (hacc : (0xFF800000#32 : BitVec 32) = 0xFF800000#32) (r : Fin 1024) (g : Fin 8) :
    multiReduction .maximumf [2] S1024x8 v 0xFF800000#32 h hφ hacc (ix2 r g)
      = (Finset.univ : Finset (Fin 8)).fold max negInf fun k => v (ix3 r g k) := by
  refine (Ideal.multiReduction_maximumf_single v 0xFF800000#32 h hφ hacc (ix2 r g)).trans ?_
  exact congrArg (fun f => (Finset.univ : Finset (Fin 8)).fold max negInf f)
    (funext fun k => congrArg v (funext fun a => Fin.ext (by match a with | ⟨0, _⟩ => rfl | ⟨1, _⟩ => rfl | ⟨2, _⟩ => rfl)))

/-- The exponential acts entry by entry. -/
theorem exp_apply {s : Shape} (v : FVec Ideal s .f32) (i : s.Idx) : exp v i = Ideal.exp (v i) := rfl

/-! ## The scores

The product of the token block (its features rounded to half precision, which changes nothing here) with a gate
matrix, contracting the 2048 features of both: entry (r, c) is the sum over the features of row `r` of the block
times row `c` of the matrix. -/

theorem lhs_group_0 (i : S1024x8.Idx) (q : dot_S1024x2048_S8x2048_S1024x8_1_1_0_0_n_n.contr.Idx) :
    (dot_S1024x2048_S8x2048_S1024x8_1_1_0_0_n_n.lhsIdx i q 0).val = (i 0).val := by
  unfold DotDims.lhsIdx
  rw [dif_neg (show ¬(0 : Fin S1024x2048.rank) ∈ dot_S1024x2048_S8x2048_S1024x8_1_1_0_0_n_n.lhsBatch by decide), dif_pos (show (0 : Fin S1024x2048.rank) ∈ dot_S1024x2048_S8x2048_S1024x8_1_1_0_0_n_n.lhsNonContracting by decide)]
  rfl
theorem lhs_group_1 (i : S1024x8.Idx) (q : dot_S1024x2048_S8x2048_S1024x8_1_1_0_0_n_n.contr.Idx) :
    (dot_S1024x2048_S8x2048_S1024x8_1_1_0_0_n_n.lhsIdx i q 1).val = (q ⟨0, by decide⟩).val :=
  dot_S1024x2048_S8x2048_S1024x8_1_1_0_0_n_n.lhsIdx_val_of_single rfl i q
theorem rhs_group_0 (i : S1024x8.Idx) (q : dot_S1024x2048_S8x2048_S1024x8_1_1_0_0_n_n.contr.Idx) :
    (dot_S1024x2048_S8x2048_S1024x8_1_1_0_0_n_n.rhsIdx i q 0).val = (i 1).val := by
  unfold DotDims.rhsIdx
  rw [dif_neg (show ¬(0 : Fin S8x2048.rank) ∈ dot_S1024x2048_S8x2048_S1024x8_1_1_0_0_n_n.rhsBatch by decide), dif_pos (show (0 : Fin S8x2048.rank) ∈ dot_S1024x2048_S8x2048_S1024x8_1_1_0_0_n_n.rhsNonContracting by decide)]
  rfl
theorem rhs_group_1 (i : S1024x8.Idx) (q : dot_S1024x2048_S8x2048_S1024x8_1_1_0_0_n_n.contr.Idx) :
    (dot_S1024x2048_S8x2048_S1024x8_1_1_0_0_n_n.rhsIdx i q 1).val = (q ⟨0, by decide⟩).val :=
  dot_S1024x2048_S8x2048_S1024x8_1_1_0_0_n_n.rhsIdx_val_of_single rfl i q

/-- Entry (r, g) of the block's product with the group gate matrix is token `r`'s score against group `g`. -/
theorem group_scores (x0 : Vec Ideal S1024x2048 .f32) (x1 : Vec Ideal S8x2048 .f32) (h : FTy.bits .bf16 < FTy.bits .f32)
    (r : Fin 1024) (g : Fin 8) :
    matmul dot_S1024x2048_S8x2048_S1024x8_1_1_0_0_n_n none (k0_pay4 (F := Ideal) x0) (truncf .bf16 x1 h)
        (constant (F := Ideal) S1024x8 .f32 0x00000000#32) (ix2 r g)
      = groupLogit (rowOf x0 r) x1 g := by
  simp only [matmul]
  rw [Ideal.matmul_constant_zero_apply, ← Equiv.sum_comp (contrEquiv1 dot_S1024x2048_S8x2048_S1024x8_1_1_0_0_n_n 2048 rfl rfl).symm]
  refine Finset.sum_congr rfl fun k _ => ?_
  have hk := contrEquiv1_symm_val dot_S1024x2048_S8x2048_S1024x8_1_1_0_0_n_n 2048 rfl rfl k
  have el : dot_S1024x2048_S8x2048_S1024x8_1_1_0_0_n_n.lhsIdx (ix2 r g) ((contrEquiv1 dot_S1024x2048_S8x2048_S1024x8_1_1_0_0_n_n 2048 rfl rfl).symm k) = ix2 r k := funext fun a => Fin.ext (by
    match a with
    | ⟨0, _⟩ => exact lhs_group_0 _ _
    | ⟨1, _⟩ => exact (lhs_group_1 _ _).trans hk)
  have er : dot_S1024x2048_S8x2048_S1024x8_1_1_0_0_n_n.rhsIdx (ix2 r g) ((contrEquiv1 dot_S1024x2048_S8x2048_S1024x8_1_1_0_0_n_n 2048 rfl rfl).symm k) = ix2 g k := funext fun a => Fin.ext (by
    match a with
    | ⟨0, _⟩ => exact rhs_group_0 _ _
    | ⟨1, _⟩ => exact (rhs_group_1 _ _).trans hk)
  rw [el, er]
  rfl

/-! ## The group probabilities and gates -/

/-- Entry (r, g) of the block's group probabilities is token `r`'s probability of group `g`. -/
theorem group_prob (x0 : Vec Ideal S1024x2048 .f32) (x1 : Vec Ideal S8x2048 .f32) (r : Fin 1024) (g : Fin 8) :
    k0_pay5 (F := Ideal) x0 x1 (ix2 r g) = groupProb (rowOf x0 r) x1 g := by
  unfold k0_pay5
  simp only [divf_apply, exp_apply, subf_apply, mulf_apply, maximumf_apply, broadcast_apply, column_to_8, group_scores]
  rw [rowmax8, rowsum8]
  simp only [exp_apply, subf_apply, mulf_apply, maximumf_apply, broadcast_apply, column_to_8, group_scores]
  rw [rowmax8]
  simp only [mulf_apply, broadcast_apply, group_scores]
  rfl

/-- Entry (r, g) of the block's group gates, read as numbers: token `r` keeps group `g`. -/
theorem group_gate (x0 : Vec Ideal S1024x2048 .f32) (x1 : Vec Ideal S8x2048 .f32) (r : Fin 1024) (g : Fin 8) :
    k0_pay6 (F := Ideal) x0 x1 (ix2 r g) = bitf (groupGate (rowOf x0 r) x1 g) := by
  unfold k0_pay6
  simp only [sitofp_apply, extui_apply, cmpf_apply, broadcast_apply, group_prob]
  exact toInt_setWidth_eq_bitf _

/-! ## The expert probabilities and gates -/

theorem lhs_expert_0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
theorem lhs_expert_1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
theorem rhs_expert_0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
theorem rhs_expert_1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- Entry (r, 8 g + e) of the block's product with the expert gate matrix is token `r`'s score against expert `e` of
    group `g`. -/
theorem expert_scores (x0 : Vec Ideal S1024x2048 .f32) (x2 : Vec Ideal S64x2048 .f32) (h : FTy.bits .bf16 < FTy.bits .f32)
    (r : Fin 1024) (g e : Fin 8) :
    matmul dot_S1024x2048_S64x2048_S1024x64_1_1_0_0_n_n none (k0_pay4 (F := Ideal) x0) (truncf .bf16 x2 h)
        (constant (F := Ideal) S1024x64 .f32 0x00000000#32) (ix2 r (pair g e))
      = expertLogit (rowOf x0 r) x2 g e := by
  simp only [matmul]
  rw [Ideal.matmul_constant_zero_apply, ← Equiv.sum_comp (contrEquiv1 dot_S1024x2048_S64x2048_S1024x64_1_1_0_0_n_n 2048 rfl rfl).symm]
  refine Finset.sum_congr rfl fun k _ => ?_
  have hk := contrEquiv1_symm_val dot_S1024x2048_S64x2048_S1024x64_1_1_0_0_n_n 2048 rfl rfl k
  have el : dot_S1024x2048_S64x2048_S1024x64_1_1_0_0_n_n.lhsIdx (ix2 r (pair g e)) ((contrEquiv1 dot_S1024x2048_S64x2048_S1024x64_1_1_0_0_n_n 2048 rfl rfl).symm k) = ix2 r k := funext fun a => Fin.ext (by
    match a with
    | ⟨0, _⟩ => exact lhs_expert_0 _ _
    | ⟨1, _⟩ => exact (lhs_expert_1 _ _).trans hk)
  have er : dot_S1024x2048_S64x2048_S1024x64_1_1_0_0_n_n.rhsIdx (ix2 r (pair g e)) ((contrEquiv1 dot_S1024x2048_S64x2048_S1024x64_1_1_0_0_n_n 2048 rfl rfl).symm k) = ix2 (pair g e) k := funext fun a => Fin.ext (by
    match a with
    | ⟨0, _⟩ => exact rhs_expert_0 _ _
    | ⟨1, _⟩ => exact (rhs_expert_1 _ _).trans hk)
  rw [el, er]
  rfl

/-- Entry (r, g, e) of the block's expert probabilities is token `r`'s probability of expert `e` inside group `g`. -/
theorem expert_prob (x0 : Vec Ideal S1024x2048 .f32) (x2 : Vec Ideal S64x2048 .f32) (r : Fin 1024) (g e : Fin 8) :
    k0_pay7 (F := Ideal) x0 x2 (ix3 r g e) = expertProb (rowOf x0 r) x2 g e := by
  unfold k0_pay7
  simp only [divf_apply, exp_apply, subf_apply, mulf_apply, maximumf_apply, broadcast_apply, group_to_experts, regroup,
    expert_scores]
  rw [groupmax8, groupsum8]
  simp only [exp_apply, subf_apply, mulf_apply, maximumf_apply, broadcast_apply, group_to_experts, regroup, expert_scores]
  rw [groupmax8]
  simp only [mulf_apply, broadcast_apply, regroup, expert_scores]
  rfl

/-- Entry (r, g, e) of the block's expert gates: token `r` keeps expert `e` of group `g`. -/
theorem expert_gate (x0 : Vec Ideal S1024x2048 .f32) (x2 : Vec Ideal S64x2048 .f32) (r : Fin 1024) (g e : Fin 8) :
    k0_pay8 (F := Ideal) x0 x2 (ix3 r g e) = expertGate (rowOf x0 r) x2 g e := by
  unfold k0_pay8
  simp only [cmpf_apply, broadcast_apply, expert_prob]
  rfl

/-! ## The selection and the weights -/

/-- The group gates as numbers, repeated along the experts, times the expert gates read as numbers. -/
theorem gates_product (v24 : FVec Ideal S1024x8 .f32) (v40 : IVec S1024x8x8 1) (r : Fin 1024) (g e : Fin 8) :
    k0_pay1 (F := Ideal) v24 v40 (ix3 r g e) = v24 (ix2 r g) * bitf (v40 (ix3 r g e)) := by
  unfold k0_pay1
  simp only [mulf_apply, group_to_experts, sitofp_apply, extui_apply]
  exact congrArg (v24 (ix2 r g) * ·) (toInt_setWidth_eq_bitf _)

/-- Entry (r, j) of the value the body stores in its first output block: token `r`'s selection of pair `j`, as a number. -/
theorem mask_payload (x0 : Vec Ideal S1024x2048 .f32) (x1 : Vec Ideal S8x2048 .f32) (x2 : Vec Ideal S64x2048 .f32)
    (r : Fin 1024) (j : Fin 64) :
    k0_pay2 (F := Ideal) (k0_pay6 x0 x1) (k0_pay8 x0 x2) (ix2 r j) = maskF (rowOf x0 r) x1 x2 j := by
  unfold k0_pay2
  simp only [flatten, gates_product, group_gate, expert_gate]
  rfl

/-- Entry (r, j) of the value the body stores in its second output block: token `r`'s normalised weight of pair `j`. -/
theorem weight_payload (x0 : Vec Ideal S1024x2048 .f32) (x1 : Vec Ideal S8x2048 .f32) (x2 : Vec Ideal S64x2048 .f32)
    (r : Fin 1024) (j : Fin 64) :
    k0_pay3 (F := Ideal) (k0_pay5 x0 x1) (k0_pay6 x0 x1) (k0_pay7 x0 x2) (k0_pay8 x0 x2) (ix2 r j)
      = weight (rowOf x0 r) x1 x2 j := by
  unfold k0_pay3
  simp only [divf_apply, column_to_64, maximumf_apply, broadcast_apply, column_unit, flatten, mulf_apply, group_to_experts,
    gates_product, group_prob, group_gate, expert_prob, expert_gate]
  rw [rowsum64]
  simp only [flatten, mulf_apply, group_to_experts, gates_product, group_prob, group_gate, expert_prob, expert_gate]
  rfl

end Cert.KernelIdeal.Rows

end
-- ==== Proof.KernelArrays.lean ====
/-
  From the kernel's blocks to its two result arrays, and the run of the whole kernel program.

  The kernel walks the 16384 tokens in 16 blocks of 1024 rows.  At block `t` it reads rows `1024 t … 1024 t + 1023`
  of the token matrix and the two gate matrices whole, and writes rows `1024 t … 1024 t + 1023` of two arrays: the
  selection of every pair as the number 0 or 1, and the normalised weights.  Entry (r, j) of what it writes is the
  routing of token `1024 t + r` (the body's row lemmas), so block by block the two arrays are the per-token routing
  of all the tokens; the 16 blocks cover every row.  After the blocks the program compares the numeric selection with
  zero, entry by entry: a product of two gates read as numbers differs from zero exactly when both gates hold, which
  gives the selection bits.
-/
import proofs.«172624_j46084999086157_1_alg».proof.Proof.Gen.KernelIdeal.Frame
import proofs.«172624_j46084999086157_1_alg».proof.Proof.KernelRows
import proofs.«172624_j46084999086157_1_alg».proof.Proof.RoutingSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Routing Idealize.ShloMosaic.ValueIdx

variable (m : (ℓ : Loc nD τ sig) → Buf (Elt Ideal) ℓ) (ρ : Dev nD → PrngReg)

/-! ## The blocks' places -/

theorem hz : (![0, 0] : Fin 2 → Nat) = fun _ => 0 := funext fun a => by fin_cases a <;> rfl

/-- At block `t` the token window and the two result windows sit at block row `t`, block column 0; the two gate
    matrices are read whole. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The token arrays as matrices. -/
abbrev X (c : Dev nD) : Tokens := V m c main_arg0
abbrev Wg (c : Dev nD) : GroupW := V m c main_arg1
abbrev We (c : Dev nD) : ExpertW := V m c main_arg2

theorem t_lt (t : Fin cfg0.N) : t.val < 16 := by have := t.isLt; have h : cfg0.N = 16 := N_0; omega

/-! ## The input blocks as parts of the arrays -/

/-- Row `r` of block `t` of the tokens is token `1024 t + r`. -/
theorem token_row (c : Dev nD) (t : Fin cfg0.N) (r : Fin 1024) :
    rowOf (N := 1024) (iblk m c 0 t) r
      = rowOf (X m c) ⟨1024 * t.val + r.val, by have := t_lt t; have := r.isLt; omega⟩ := by
  funext k
  show V m c main_arg0 (((cfg0.win 0).blk t).view.emb (ix2 r k)) = V m c main_arg0 (ix2 ⟨1024 * t.val + r.val, _⟩ k)
  refine congrArg (V m c main_arg0) (funext fun a => Fin.ext ?_)
  obtain ⟨e0, e1, -⟩ := block_places t
  match a with
  | ⟨0, _⟩ => show win0_0.index t (0 : Fin 2) * 1024 + 1 * r.val = 1024 * t.val + r.val; rw [e0]; omega
  | ⟨1, _⟩ => show win0_0.index t (1 : Fin 2) * 2048 + 1 * k.val = k.val; rw [e1]; omega

/-- The group gate matrix is read whole at every block. -/
theorem group_block (c : Dev nD) (t : Fin cfg0.N) : (iblk m c 1 t : Vec Ideal S8x2048 .f32) = Wg m c := by
  funext y
  show V m c main_arg1 (((cfg0.win 1).blk t).view.emb y) = V m c main_arg1 y
  refine congrArg (V m c main_arg1) (funext fun a => Fin.ext ?_)
  obtain ⟨-, -, e2, e3, -⟩ := block_places t
  match a with
  | ⟨0, _⟩ => show win0_1.index t (0 : Fin 2) * 8 + 1 * (y 0).val = (y 0).val; rw [e2]; omega
  | ⟨1, _⟩ => show win0_1.index t (1 : Fin 2) * 2048 + 1 * (y 1).val = (y 1).val; rw [e3]; omega

/-- So is the expert gate matrix. -/
theorem expert_block (c : Dev nD) (t : Fin cfg0.N) : (iblk m c 2 t : Vec Ideal S64x2048 .f32) = We m c := by
  funext y
  show V m c main_arg2 (((cfg0.win 2).blk t).view.emb y) = V m c main_arg2 y
  refine congrArg (V m c main_arg2) (funext fun a => Fin.ext ?_)
  obtain ⟨-, -, -, -, e4, e5, -⟩ := block_places t
  match a with
  | ⟨0, _⟩ => show win0_2.index t (0 : Fin 2) * 64 + 1 * (y 0).val = (y 0).val; rw [e4]; omega
  | ⟨1, _⟩ => show win0_2.index t (1 : Fin 2) * 2048 + 1 * (y 1).val = (y 1).val; rw [e5]; omega

/-- Entry (r, j) of result block `t` lies at (1024 t + r, j) of the result array. -/
theorem result_place3 (t : Fin cfg0.N) (r : Fin 1024) (j : Fin 64) :
    ((cfg0.win 3).blk t).view.emb (ix2 r j)
      = ix2 (n0 := 16384) ⟨1024 * t.val + r.val, by have := t_lt t; have := r.isLt; omega⟩ j := by
  funext a; apply Fin.ext
  obtain ⟨-, -, -, -, -, -, e6, e7, -⟩ := block_places t
  match a with
  | ⟨0, _⟩ => show win0_3.index t (0 : Fin 2) * 1024 + 1 * r.val = 1024 * t.val + r.val; rw [e6]; omega
  | ⟨1, _⟩ => show win0_3.index t (1 : Fin 2) * 64 + 1 * j.val = j.val; rw [e7]; omega

theorem result_place4 (t : Fin cfg0.N) (r : Fin 1024) (j : Fin 64) :
    ((cfg0.win 4).blk t).view.emb (ix2 r j)
      = ix2 (n0 := 16384) ⟨1024 * t.val + r.val, by have := t_lt t; have := r.isLt; omega⟩ j := by
  funext a; apply Fin.ext
  obtain ⟨-, -, -, -, -, -, -, -, e8, e9⟩ := block_places t
  match a with
  | ⟨0, _⟩ => show win0_4.index t (0 : Fin 2) * 1024 + 1 * r.val = 1024 * t.val + r.val; rw [e8]; omega
  | ⟨1, _⟩ => show win0_4.index t (1 : Fin 2) * 64 + 1 * j.val = j.val; rw [e9]; omega

/-! ## What a block writes back -/

/-- Entry (r, j) of what block `t` leaves in the first result's buffer is token `1024 t + r`'s selection of pair `j`. -/
theorem entry3 (c : Dev nD) (t : Fin cfg0.N) (y : S1024x64.Idx) :
    k0_pay2 (F := Ideal) (k0_pay6 (iblk m c 0 t) (iblk m c 1 t)) (k0_pay8 (iblk m c 0 t) (iblk m c 2 t)) y
      = maskFs (X m c) (Wg m c) (We m c) (((cfg0.win 3).blk t).view.emb y) := by
  obtain ⟨r, j, rfl⟩ : ∃ (r : Fin 1024) (j : Fin 64), y = ix2 r j := ⟨y 0, y 1, eq_ix2 y⟩
  refine (Rows.mask_payload (iblk m c 0 t) (iblk m c 1 t) (iblk m c 2 t) r j).trans ?_
  rw [result_place3 t r j, token_row m c t r, group_block m c t, expert_block m c t]
  rfl

/-- Block `t` of the numeric selection: the rows `1024 t …` of every token's selection. -/
theorem flushed3_eq (c : Dev nD) (t : Fin cfg0.N) :
    (dats m 0 c).flushed 3 t = ((cfg0.win 3).blk t).view.read (Elt Ideal) (maskFs (X m c) (Wg m c) (We m c)) := by
  show (cfg0.win 3).cut (grid0.coords t) ((dats m 0 c).after 3 t) = _
  rw [after0_3]
  unfold out0_3
  rw [View.canon_unit_zero hz]
  simp only [View.ld_unit_zero (S := S1024x2048) hz, View.ld_unit_zero (S := S8x2048) hz, View.ld_unit_zero (S := S64x2048) hz]
  funext y
  exact entry3 m c t y

/-- Entry (r, j) of what block `t` leaves in the second result's buffer is token `1024 t + r`'s weight of pair `j`. -/
theorem entry4 (c : Dev nD) (t : Fin cfg0.N) (y : S1024x64.Idx) :
    k0_pay3 (F := Ideal) (k0_pay5 (iblk m c 0 t) (iblk m c 1 t)) (k0_pay6 (iblk m c 0 t) (iblk m c 1 t))
        (k0_pay7 (iblk m c 0 t) (iblk m c 2 t)) (k0_pay8 (iblk m c 0 t) (iblk m c 2 t)) y
      = weights (X m c) (Wg m c) (We m c) (((cfg0.win 4).blk t).view.emb y) := by
  obtain ⟨r, j, rfl⟩ : ∃ (r : Fin 1024) (j : Fin 64), y = ix2 r j := ⟨y 0, y 1, eq_ix2 y⟩
  refine (Rows.weight_payload (iblk m c 0 t) (iblk m c 1 t) (iblk m c 2 t) r j).trans ?_
  rw [result_place4 t r j, token_row m c t r, group_block m c t, expert_block m c t]
  rfl

/-- Block `t` of the weights: the rows `1024 t …` of every token's weights. -/
theorem flushed4_eq (c : Dev nD) (t : Fin cfg0.N) :
    (dats m 0 c).flushed 4 t = ((cfg0.win 4).blk t).view.read (Elt Ideal) (weights (X m c) (Wg m c) (We m c)) := by
  show (cfg0.win 4).cut (grid0.coords t) ((dats m 0 c).after 4 t) = _
  rw [after0_4]
  unfold out0_4
  rw [View.canon_unit_zero hz]
  simp only [View.ld_unit_zero (S := S1024x2048) hz, View.ld_unit_zero (S := S8x2048) hz, View.ld_unit_zero (S := S64x2048) hz]
  funext y
  exact entry4 m c t y

/-! ## The blocks cover the arrays -/

/-- An entry of the first result array is in block `t` iff each coordinate is in the block's range on its axis. -/
theorem mem_blk3 (t : Fin cfg0.N) (i : S16384x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0_0).slice (win0_3.rect t)).set ↔ _
  rw [View.set_slice_whole, Rect.mem_set_unit]
  exact Iff.rfl

theorem mem_blk4 (t : Fin cfg0.N) (i : S16384x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v0_1).slice (win0_4.rect t)).set ↔ _
  rw [View.set_slice_whole, Rect.mem_set_unit]
  exact Iff.rfl

/-- Row `n` is written by block `n / 1024`. -/
theorem cover3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 16 := N_0
  obtain ⟨t, ht⟩ : ∃ t : Fin cfg0.N, t.val = (i 0).val / 1024 := ⟨⟨(i 0).val / 1024, by omega⟩, rfl⟩
  refine ⟨t, flush0_3 t, ?_⟩
  rw [mem_blk3]
  obtain ⟨-, -, -, -, -, -, e6, e7, -⟩ := block_places t
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 64 ≤ (i 1).val ∧ (i 1).val < win0_3.index t (1 : Fin 2) * 64 + 64; rw [e7]; omega

theorem cover4 (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 16 := N_0
  obtain ⟨t, ht⟩ : ∃ t : Fin cfg0.N, t.val = (i 0).val / 1024 := ⟨⟨(i 0).val / 1024, by omega⟩, rfl⟩
  refine ⟨t, flush0_4 t, ?_⟩
  rw [mem_blk4]
  obtain ⟨-, -, -, -, -, -, -, -, e8, e9⟩ := block_places t
  intro a
  match a with
  | ⟨0, _⟩ => show win0_4.index t (0 : Fin 2) * 1024 ≤ (i 0).val ∧ (i 0).val < win0_4.index t (0 : Fin 2) * 1024 + 1024; rw [e8]; omega
  | ⟨1, _⟩ => show win0_4.index t (1 : Fin 2) * 64 ≤ (i 1).val ∧ (i 1).val < win0_4.index t (1 : Fin 2) * 64 + 64; rw [e9]; omega

/-! ## The two arrays after the blocks -/

/-- The first result array ends holding every token's selection as numbers. -/
theorem final3 (c : Dev nD) : (dats m 0 c).arrAt 3 cfg0.N = maskFs (X m c) (Wg m c) (We m c) :=
  (dats m 0 c).arrAt_eq_of_cover 3 (maskFs (X m c) (Wg m c) (We m c)) (fun t _ => flushed3_eq m c t) cover3

/-- The second ends holding every token's weights. -/
theorem final4 (c : Dev nD) : (dats m 0 c).arrAt 4 cfg0.N = weights (X m c) (Wg m c) (We m c) :=
  (dats m 0 c).arrAt_eq_of_cover 4 (weights (X m c) (Wg m c) (We m c)) (fun t _ => flushed4_eq m c t) cover4

/-! ## The comparison after the blocks -/

/-- The first result array as the comparison finds it. -/
theorem mask_array (c : Dev nD) :
    Pipeline.withArrays (cfgs 0).spec c (V0 m c) (fun w => (dats m 0 c).arrAt w (cfgs 0).N) (Proc.devRef .tc main_v0_0)
      = maskFs (X m c) (Wg m c) (We m c) :=
  (Pipeline.withArrays_arr spec0 winFacts0.arr_inj c _ _ 3).trans (final3 m c)

/-- Comparing the numeric selection with zero, entry by entry, gives the selection bits: a product of two gates read as
    numbers differs from zero exactly when both gates hold. -/
theorem tail3 (c : Dev nD) :
    Pipeline.afterTail₀ cfgs (dats m) 0 (V0 m) [hostOps1] c main_v3 = maskBits (X m c) (Wg m c) (We m c) := by
  unfold Pipeline.afterTail₀
  show StableHlo.after hostOps1 _ (Proc.devRef .tc main_v3) = _
  after_results
  rw [mask_array m c]
  funext i
  show Ideal.cmp .une (maskF (rowOf (X m c) (i 0)) (Wg m c) (We m c) (i 1))
      (broadcastInDim S16384x64 ![] bcast_S_S16384x64 (constant (F := Ideal) S_ .f32 0x00000000#32) i)
    = maskBit (rowOf (X m c) (i 0)) (Wg m c) (We m c) (i 1)
  rw [broadcastInDim_apply (![] : Fin 0 → Fin 2) bcast_S_S16384x64 _ i ix0 (fun a => a.elim0)]
  exact cmp_une_maskF _ _ _ _

/-! ## The run -/

theorem v3_bypasses : main_v3 ∈ Pipeline.restRefs sig spec0 :=
  Pipeline.mem_restRefs_of main_v3 rfl (by decide)

/-- Every run of the kernel program ends with the selection bits and the weights of all the tokens in its two results,
    and its three arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = maskBits (m ((c.tc : Thread nD τ).loc main_arg0)) (m ((c.tc : Thread nD τ).loc main_arg1)) (m ((c.tc : Thread nD τ).loc main_arg2))
      ∧ r.2.mem ((c.tc : Thread nD τ).loc main_v0_1) = weights (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 v3_bypasses).trans (tail3 m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Arrays

end
-- ==== Proof.ReferenceRows.lean ====
/-
  The reference program read one entry at a time: its two results at entry (n, j) are token n's routing.

  The reference computes, for all 16384 tokens at once, the group scores and the expert scores, the two softmaxes
  (over the 8 groups; over the 8 experts inside each group), the two keeping tests, their conjunction, the selected
  products and their normalisation.  Each stage is an array; read at the coordinates of one token it is the
  corresponding quantity of the one-token routing.  The stages are taken in program order, the group chain first
  (arrays over (token, group)), then the expert chain (arrays over (token, group, expert)), then the two results
  (arrays over (token, pair) with pair = 8 · group + expert).
-/
import proofs.«172624_j46084999086157_1_alg».proof.Proof.Gen.ReferenceIdeal.Read
import proofs.«172624_j46084999086157_1_alg».proof.Proof.RoutingSpec
import Idealize.ShloMosaic.PureOps.Reduce
import Idealize.ShloMosaic.PureOps.Ideal.Laws
import Idealize.ShloMosaic.Lib.ValueIdx

noncomputable section

namespace Cert.ReferenceIdeal.Rows

open Cert.ReferenceIdeal Cert.ReferenceIdeal.Gen Cert.ReferenceIdeal.Read Cert.Routing Idealize.ShloMosaic Idealize.ShloMosaic.ValueIdx

variable (X0 : (⟨S16384x2048, .f32⟩ : BufTy).Contents (Elt Ideal)) (X1 : (⟨S8x2048, .f32⟩ : BufTy).Contents (Elt Ideal))
  (X2 : (⟨S64x2048, .f32⟩ : BufTy).Contents (Elt Ideal))

/-! ## The group chain: arrays over (token, group) -/

/-- The scaled group scores: entry (n, g) is token n's score against group g, times the temperature factor. -/
theorem v2_at (n : Fin 16384) (g : Fin 8) :
    val_main_v2 (F := Ideal) X0 X1 (ix2 n g) = groupLogit (rowOf X0 n) X1 g * one := by
  rw [val_main_v2_apply, val_main_v1_apply, val_main_cst_apply, val_main_v0_apply]
  show (∑ k : Fin 2048, X0 (lidx_main_v0 (ix2 n g) k) * X1 (ridx_main_v0 (ix2 n g) k)) * one
      = (∑ k : Fin 2048, X0 (ix2 n k) * X1 (ix2 g k)) * one
  refine congrArg (· * one) (Finset.sum_congr rfl fun k _ => ?_)
  have el : lidx_main_v0 (ix2 n g) k = ix2 n k := funext fun a => by match a with | ⟨0, _⟩ => rfl | ⟨1, _⟩ => rfl
  have er : ridx_main_v0 (ix2 n g) k = ix2 g k := funext fun a => by match a with | ⟨0, _⟩ => rfl | ⟨1, _⟩ => rfl
  rw [el, er]

/-- The row maximum of the scaled group scores, as the reduction computes it: the fold of max from −∞. -/
theorem v3_at (n : Fin 16384) :
    val_main_v3 (F := Ideal) X0 X1 (ix1 n)
      = (Finset.univ : Finset (Fin 8)).fold max negInf fun k => groupLogit (rowOf X0 n) X1 k * one := by
  unfold val_main_v3
  refine (Host.reduce_eq_fold_single (FloatOps.maximumf (F := Ideal) (φ := .f32)) (val_main_v2 (F := Ideal) X0 X1)
    (val_main_cst_0 (F := Ideal)) reducesTo_S16384x8_S16384_d1 (by decide) h_S_ (ix1 n)).trans ?_
  show (Finset.univ : Finset (Fin 8)).fold max negInf _ = _
  refine congrArg (fun f => (Finset.univ : Finset (Fin 8)).fold max negInf f) (funext fun k => ?_)
  refine (congrArg (val_main_v2 (F := Ideal) X0 X1) (?_ : _ = ix2 n k)).trans (v2_at X0 X1 n k)
  exact funext fun a => Fin.ext (by match a with | ⟨0, _⟩ => rfl | ⟨1, _⟩ => rfl)

/-- The largest scaled group score of token n. -/
theorem v5_at (n : Fin 16384) :
    val_main_v5 (F := Ideal) X0 X1 (ix1 n) = peak (groupLogit (rowOf X0 n) X1) := by
  rw [val_main_v5_apply, val_main_v4_apply, val_main_cst_1_apply, v3_at]
  rfl

/-- The exponentials of the shifted group scores. -/
theorem v9_at (n : Fin 16384) (g : Fin 8) :
    val_main_v9 (F := Ideal) X0 X1 (ix2 n g) = shifted (groupLogit (rowOf X0 n) X1) g := by
  rw [val_main_v9_apply, val_main_v8_apply, val_main_v7_apply, val_main_v6_apply, v2_at]
  have e : idx_main_v6 (idx_main_v7 (ix2 n g)) = ix1 n := funext fun a => by match a with | ⟨0, _⟩ => rfl
  rw [e, v5_at]
  rfl

/-- The sum of those exponentials over the groups. -/
theorem v10_at (n : Fin 16384) :
    val_main_v10 (F := Ideal) X0 X1 (ix1 n) = ∑ k : Fin 8, shifted (groupLogit (rowOf X0 n) X1) k := by
  rw [val_main_v10_apply, val_main_cst_2_apply, Ideal.ofBits_def, Ideal.ofBits_zero_f32, zero_add]
  refine Finset.sum_congr rfl fun k _ => ?_
  have e : idx_main_v10 (ix1 n) k = ix2 n k := funext fun a => by match a with | ⟨0, _⟩ => rfl | ⟨1, _⟩ => rfl
  rw [e, v9_at]

/-- The group probabilities. -/
theorem v13_at (n : Fin 16384) (g : Fin 8) :
    val_main_v13 (F := Ideal) X0 X1 (ix2 n g) = groupProb (rowOf X0 n) X1 g := by
  rw [val_main_v13_apply, val_main_v12_apply, val_main_v11_apply, v9_at]
  have e : idx_main_v11 (idx_main_v12 (ix2 n g)) = ix1 n := funext fun a => by match a with | ⟨0, _⟩ => rfl
  rw [e, v10_at]
  rfl

/-- The group keeping tests. -/
theorem v15_at (n : Fin 16384) (g : Fin 8) :
    val_main_v15 (F := Ideal) X0 X1 (ix2 n g) = groupGate (rowOf X0 n) X1 g := by
  rw [val_main_v15_apply, val_main_v14_apply, val_main_cst_3_apply, v13_at]
  rfl

/-! ## The expert chain: arrays over (token, group, expert) -/

/-- Splitting the 64 expert columns into 8 groups of 8 reads column 8 g + e at (g, e). -/
theorem idx17_at (n : Fin 16384) (g e : Fin 8) : idx_main_v17 (ix3 n g e) = ix2 n (pair g e) :=
  funext fun a => Fin.ext (by
    have hn := n.isLt; have hg := g.isLt; have he := e.isLt
    match a with
    | ⟨0, _⟩ => show ((n.val * 8 + g.val) * 8 + e.val) / 64 = n.val; omega
    | ⟨1, _⟩ => show ((n.val * 8 + g.val) * 8 + e.val) % 64 = g.val * 8 + e.val; omega)

/-- Joining (group, expert) back into one column reads column j at (j / 8, j mod 8). -/
theorem idx41_at (n : Fin 16384) (j : Fin 64) : idx_main_v41 (ix2 n j) = ix3 n (hi j) (lo j) :=
  funext fun a => Fin.ext (by
    have hn := n.isLt; have hj := j.isLt
    match a with
    | ⟨0, _⟩ => show (n.val * 64 + j.val) / 64 = n.val; omega
    | ⟨1, _⟩ => show (n.val * 64 + j.val) / 8 % 8 = j.val / 8; omega
    | ⟨2, _⟩ => show (n.val * 64 + j.val) % 8 = j.val % 8; omega)

/-- The scaled expert scores: entry (n, g, e) is token n's score against expert e of group g, times the temperature factor. -/
theorem v19_at (n : Fin 16384) (g e : Fin 8) :
    val_main_v19 (F := Ideal) X0 X2 (ix3 n g e) = expertLogit (rowOf X0 n) X2 g e * one := by
  rw [val_main_v19_apply, val_main_v18_apply, val_main_cst_4_apply, val_main_v17_apply, idx17_at, val_main_v16_apply]
  show (∑ k : Fin 2048, X0 (lidx_main_v16 (ix2 n (pair g e)) k) * X2 (ridx_main_v16 (ix2 n (pair g e)) k)) * one
      = (∑ k : Fin 2048, X0 (ix2 n k) * X2 (ix2 (pair g e) k)) * one
  refine congrArg (· * one) (Finset.sum_congr rfl fun k _ => ?_)
  have el : lidx_main_v16 (ix2 n (pair g e)) k = ix2 n k := funext fun a => by match a with | ⟨0, _⟩ => rfl | ⟨1, _⟩ => rfl
  have er : ridx_main_v16 (ix2 n (pair g e)) k = ix2 (pair g e) k := funext fun a => by match a with | ⟨0, _⟩ => rfl | ⟨1, _⟩ => rfl
  rw [el, er]

/-- The maximum over a group's experts of the scaled scores, as the reduction computes it: the fold of max from −∞. -/
theorem v20_at (n : Fin 16384) (g : Fin 8) :
    val_main_v20 (F := Ideal) X0 X2 (ix2 n g)
      = (Finset.univ : Finset (Fin 8)).fold max negInf fun k => expertLogit (rowOf X0 n) X2 g k * one := by
  unfold val_main_v20
  refine (Host.reduce_eq_fold_single (FloatOps.maximumf (F := Ideal) (φ := .f32)) (val_main_v19 (F := Ideal) X0 X2)
    (val_main_cst_5 (F := Ideal)) reducesTo_S16384x8x8_S16384x8_d2 (by decide) h_S_ (ix2 n g)).trans ?_
  show (Finset.univ : Finset (Fin 8)).fold max negInf _ = _
  refine congrArg (fun f => (Finset.univ : Finset (Fin 8)).fold max negInf f) (funext fun k => ?_)
  refine (congrArg (val_main_v19 (F := Ideal) X0 X2) (?_ : _ = ix3 n g k)).trans (v19_at X0 X2 n g k)
  exact funext fun a => Fin.ext (by match a with | ⟨0, _⟩ => rfl | ⟨1, _⟩ => rfl | ⟨2, _⟩ => rfl)

/-- The largest scaled score among group g's experts. -/
theorem v22_at (n : Fin 16384) (g : Fin 8) :
    val_main_v22 (F := Ideal) X0 X2 (ix2 n g) = peak (expertLogit (rowOf X0 n) X2 g) := by
  rw [val_main_v22_apply, val_main_v21_apply, val_main_cst_6_apply, v20_at]
  rfl

/-- The exponentials of the shifted expert scores. -/
theorem v26_at (n : Fin 16384) (g e : Fin 8) :
    val_main_v26 (F := Ideal) X0 X2 (ix3 n g e) = shifted (expertLogit (rowOf X0 n) X2 g) e := by
  rw [val_main_v26_apply, val_main_v25_apply, val_main_v24_apply, val_main_v23_apply, v19_at]
  have h : idx_main_v23 (idx_main_v24 (ix3 n g e)) = ix2 n g := funext fun a => by match a with | ⟨0, _⟩ => rfl | ⟨1, _⟩ => rfl
  rw [h, v22_at]
  rfl

/-- The sum of those exponentials over a group's experts. -/
theorem v27_at (n : Fin 16384) (g : Fin 8) :
    val_main_v27 (F := Ideal) X0 X2 (ix2 n g) = ∑ k : Fin 8, shifted (expertLogit (rowOf X0 n) X2 g) k := by
  rw [val_main_v27_apply, val_main_cst_7_apply, Ideal.ofBits_def, Ideal.ofBits_zero_f32, zero_add]
  refine Finset.sum_congr rfl fun k _ => ?_
  have h : idx_main_v27 (ix2 n g) k = ix3 n g k := funext fun a => by match a with | ⟨0, _⟩ => rfl | ⟨1, _⟩ => rfl | ⟨2, _⟩ => rfl
  rw [h, v26_at]

/-- The expert probabilities inside each group. -/
theorem v30_at (n : Fin 16384) (g e : Fin 8) :
    val_main_v30 (F := Ideal) X0 X2 (ix3 n g e) = expertProb (rowOf X0 n) X2 g e := by
  rw [val_main_v30_apply, val_main_v29_apply, val_main_v28_apply, v26_at]
  have h : idx_main_v28 (idx_main_v29 (ix3 n g e)) = ix2 n g := funext fun a => by match a with | ⟨0, _⟩ => rfl | ⟨1, _⟩ => rfl
  rw [h, v27_at]
  rfl

/-- The expert keeping tests. -/
theorem v32_at (n : Fin 16384) (g e : Fin 8) :
    val_main_v32 (F := Ideal) X0 X2 (ix3 n g e) = expertGate (rowOf X0 n) X2 g e := by
  rw [val_main_v32_apply, val_main_v31_apply, val_main_cst_8_apply, v30_at]
  rfl

/-! ## Group and expert together -/

/-- The conjunction of the two keeping tests. -/
theorem v35_at (n : Fin 16384) (g e : Fin 8) :
    val_main_v35 (F := Ideal) X0 X1 X2 (ix3 n g e)
      = groupGate (rowOf X0 n) X1 g &&& expertGate (rowOf X0 n) X2 g e := by
  rw [val_main_v35_apply, val_main_v34_apply, val_main_v33_apply, v32_at]
  have h : idx_main_v33 (idx_main_v34 (ix3 n g e)) = ix2 n g := funext fun a => by match a with | ⟨0, _⟩ => rfl | ⟨1, _⟩ => rfl
  rw [h, v15_at]
  rfl

/-- The product of the two probabilities, kept where the pair is selected and 0 elsewhere. -/
theorem v40_at (n : Fin 16384) (g e : Fin 8) :
    val_main_v40 (F := Ideal) X0 X1 X2 (ix3 n g e)
      = (groupProb (rowOf X0 n) X1 g * expertProb (rowOf X0 n) X2 g e)
          * bitf (groupGate (rowOf X0 n) X1 g &&& expertGate (rowOf X0 n) X2 g e) := by
  rw [val_main_v40_apply, val_main_v39_apply, val_main_v38_apply, val_main_v37_apply, val_main_v36_apply, v30_at, v35_at]
  have h : idx_main_v36 (idx_main_v37 (ix3 n g e)) = ix2 n g := funext fun a => by match a with | ⟨0, _⟩ => rfl | ⟨1, _⟩ => rfl
  rw [h, v13_at]
  rfl

/-! ## The two results: arrays over (token, pair) -/

/-- The selection bits: entry (n, j) is token n's bit for pair j. -/
theorem mask_ref (X0 : (⟨S16384x2048, .f32⟩ : BufTy).Contents (Elt Ideal)) (X1 : (⟨S8x2048, .f32⟩ : BufTy).Contents (Elt Ideal))
    (X2 : (⟨S64x2048, .f32⟩ : BufTy).Contents (Elt Ideal)) (n : Fin 16384) (j : Fin 64) :
    val_main_v41 (F := Ideal) X0 X1 X2 (ix2 n j) = maskBit (rowOf X0 n) X1 X2 j := by
  rw [val_main_v41_apply, idx41_at, v35_at]
  rfl

/-- The selected weights before normalising. -/
theorem v42_at (n : Fin 16384) (j : Fin 64) :
    val_main_v42 (F := Ideal) X0 X1 X2 (ix2 n j) = selected (rowOf X0 n) X1 X2 j := by
  rw [val_main_v42_apply]
  have h : idx_main_v42 (ix2 n j) = ix3 n (hi j) (lo j) := idx41_at n j
  rw [h, v40_at]
  unfold selected
  rw [maskF_eq]
  rfl

/-- The sum of a token's 64 selected weights. -/
theorem v43_at (n : Fin 16384) :
    val_main_v43 (F := Ideal) X0 X1 X2 (ix1 n) = ∑ j : Fin 64, selected (rowOf X0 n) X1 X2 j := by
  rw [val_main_v43_apply, val_main_cst_9_apply, Ideal.ofBits_def, Ideal.ofBits_zero_f32, zero_add]
  refine Finset.sum_congr rfl fun k _ => ?_
  have h : idx_main_v43 (ix1 n) k = ix2 n k := funext fun a => by match a with | ⟨0, _⟩ => rfl | ⟨1, _⟩ => rfl
  rw [h, v42_at]

/-- The normaliser: that sum, no smaller than the floor. -/
theorem v45_at (n : Fin 16384) (z : Fin 1) :
    val_main_v45 (F := Ideal) X0 X1 X2 (ix2 n z) = total (rowOf X0 n) X1 X2 := by
  rw [val_main_v45_apply, val_main_call0_v1_apply, val_main_call0_v0_apply, val_main_cst_10_apply, val_main_v44_apply]
  have h : idx_main_v44 (ix2 n z) = ix1 n := funext fun a => by match a with | ⟨0, _⟩ => rfl
  rw [h, v43_at]
  rfl

/-- The normalised weights: entry (n, j) is token n's weight for pair j. -/
theorem weight_ref (X0 : (⟨S16384x2048, .f32⟩ : BufTy).Contents (Elt Ideal)) (X1 : (⟨S8x2048, .f32⟩ : BufTy).Contents (Elt Ideal))
    (X2 : (⟨S64x2048, .f32⟩ : BufTy).Contents (Elt Ideal)) (n : Fin 16384) (j : Fin 64) :
    val_main_v47 (F := Ideal) X0 X1 X2 (ix2 n j) = weight (rowOf X0 n) X1 X2 j := by
  rw [val_main_v47_apply, val_main_v46_apply, v42_at]
  have h : idx_main_v46 (ix2 n j) = ix2 n (0 : Fin 1) := funext fun a => by match a with | ⟨0, _⟩ => rfl | ⟨1, _⟩ => rfl
  rw [h, v45_at]
  rfl

end Cert.ReferenceIdeal.Rows

end
-- ==== Proof.lean ====
/-
  A two-level softmax router: the kernel and the reference compute the same selection bits and the same weights.

  For each of 16384 tokens the group scores (8) and the expert scores (64, eight experts a group) go through a
  softmax over the groups and, inside every group, a softmax over its experts; a group or an expert is kept when its
  probability is at least 1/8, a pair (group, expert) is selected when both are kept, its weight is the product of the
  two probabilities, and the 64 weights are divided by their sum, taken no smaller than a fixed floor
  (RoutingSpec: the routing of one token as a function of its feature row and the two gate matrices).

  The reference does this for all tokens at once; read at entry (n, j) its two results are token n's selection bit and
  weight of pair j (ReferenceRows).  The kernel does it for 1024 tokens a block, sixteen blocks; entry (r, j) of what
  a block stores is the routing of that block's token r (KernelRows), the blocks tile the two result arrays, and the
  selection, stored as the number 0 or 1 (a product of two gates read as numbers), is compared with zero after the
  blocks, which gives back the conjunction of the gates (KernelArrays).  Over the extended reals the two programs
  apply the same operations to the same numbers: rounding the features and gates to half precision before the two
  matrix products is the identity there, a product accumulated from zero is the plain sum of products, and the only
  identity used besides is that the product of two bits read as numbers is their conjunction read as a number.  No
  entry needs to be finite for this, so the precondition is never opened.  The idealized kernel is the kernel's own
  text read over the extended reals, no operation rewritten, so nothing is owed for it.
-/
import proofs.«172624_j46084999086157_1_alg».proof.Defs
import proofs.«172624_j46084999086157_1_alg».proof.Proof.Gen.Kernel
import proofs.«172624_j46084999086157_1_alg».proof.Proof.Gen.Kernel.Skeleton
import proofs.«172624_j46084999086157_1_alg».proof.Proof.Gen.Kernel.Launch
import proofs.«172624_j46084999086157_1_alg».proof.Proof.Gen.Kernel.Points
import proofs.«172624_j46084999086157_1_alg».proof.Proof.Gen.Kernel.Frame
import proofs.«172624_j46084999086157_1_alg».proof.Proof.Gen.KernelIdeal
import proofs.«172624_j46084999086157_1_alg».proof.Proof.Gen.KernelIdeal.Skeleton
import proofs.«172624_j46084999086157_1_alg».proof.Proof.Gen.KernelIdeal.Launch
import proofs.«172624_j46084999086157_1_alg».proof.Proof.Gen.KernelIdeal.Points
import proofs.«172624_j46084999086157_1_alg».proof.Proof.Gen.KernelIdeal.Frame
import proofs.«172624_j46084999086157_1_alg».proof.Proof.Gen.ReferenceIdeal
import proofs.«172624_j46084999086157_1_alg».proof.Proof.Gen.Pre_finite_inputs
import proofs.«172624_j46084999086157_1_alg».proof.Proof.Gen.ReferenceIdeal.Run
import proofs.«172624_j46084999086157_1_alg».proof.Proof.Gen.ReferenceIdeal.Read
import proofs.«172624_j46084999086157_1_alg».proof.Proof.RoutingSpec
import proofs.«172624_j46084999086157_1_alg».proof.Proof.KernelRows
import proofs.«172624_j46084999086157_1_alg».proof.Proof.KernelArrays
import proofs.«172624_j46084999086157_1_alg».proof.Proof.ReferenceRows
import Idealize.ShloMosaic.Adequacy
import Idealize.ShloMosaic.Init

noncomputable section

namespace Cert.Proof

open Idealize.ShloMosaic Idealize.ShloMosaic.TcCoe Idealize.SL.Sem Idealize.ShloMosaic.ValueIdx Cert.Routing

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From arguments that agree, both programs end with every token's selection bits and normalised weights. -/
theorem algebraic : Cert.algebraic_KernelIdeal_ReferenceIdeal := by
  intro m ρ m' ρ' _ hagree
  refine ⟨fun c => maskBits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arrays.run m ρ, ?_⟩
  refine (θ_run Cert.ReferenceIdeal.defs _ _).mono
    (fun _ h c => ⟨?_, ?_, (h c).2.2.1, (h c).2.2.2.1, (h c).2.2.2.2⟩)
    (Cert.ReferenceIdeal.Value.run (F := Ideal) m' ρ')
  · refine (h c).1.trans ((Cert.ReferenceIdeal.Read.val_main_v41_eq m' c).trans ?_)
    rw [(hagree c).1, (hagree c).2.1, (hagree c).2.2]
    funext i
    obtain ⟨n, j, rfl⟩ : ∃ (n : Fin 16384) (j : Fin 64), i = ix2 n j := ⟨i 0, i 1, eq_ix2 i⟩
    exact Cert.ReferenceIdeal.Rows.mask_ref _ _ _ n j
  · refine (h c).2.1.trans ((Cert.ReferenceIdeal.Read.val_main_v47_eq m' c).trans ?_)
    rw [(hagree c).1, (hagree c).2.1, (hagree c).2.2]
    funext i
    obtain ⟨n, j, rfl⟩ : ∃ (n : Fin 16384) (j : Fin 64), i = ix2 n j := ⟨i 0, i 1, eq_ix2 i⟩
    exact Cert.ReferenceIdeal.Rows.weight_ref _ _ _ n j

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
